-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S_ : Shape := ⟨0, ![]⟩

class Facts : Prop where
  bcast_S_S4096x30 : S_.BroadcastsInDim S4096x30 (![] : Fin 0 → Fin S4096x30.rank)
  reducesTo_S4096x30_S_d0_1 : S4096x30.ReducesTo [0, 1] S_
  h_S_ : 0 < S_.numel
  bcast_S_S30x60 : S_.BroadcastsInDim S30x60 (![] : Fin 0 → Fin S30x60.rank)
  reducesTo_S30x60_S_d0_1 : S30x60.ReducesTo [0, 1] S_
  bcast_S_S60 : S_.BroadcastsInDim S60 (![] : Fin 0 → Fin S60.rank)
  reducesTo_S60_S_d0 : S60.ReducesTo [0] S_
  bcast_S_S60x5 : S_.BroadcastsInDim S60x5 (![] : Fin 0 → Fin S60x5.rank)
  reducesTo_S60x5_S_d0_1 : S60x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S60x5 .f32) (main_arg5 : FVec F S5 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x5 .f32 := Host.absf main_arg4
  let main_cst_6 : FVec F S_ .f32 := constant S_ .f32 0x7F800000#32
  let main_v20 : FVec F S60x5 .f32 := broadcastInDim S60x5 ![] bcast_S_S60x5 main_cst_6
  let main_v21 : IVec S60x5 1 := cmpf .olt main_v19 main_v20
  let main_c_7 : IVec S_ 1 := constantI S_ 1 1#1
  let main_v22 : IVec S_ 1 := (fun x v => Host.reduce IntOp.andi x v reducesTo_S60x5_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S4096x30 .f32) (main_arg1 : FVec F S4096x30 .f32) (main_arg2 : FVec F S30x60 .f32) (main_arg3 : FVec F S60 .f32) (main_arg4 : FVec F S60x5 .f32) (main_arg5 : FVec F S5 .f32) : IVec S_ 1 :=
  let main_v0 : FVec F S4096x30 .f32 := Host.absf main_arg0
  let main_cst : FVec F S_ .f32 := constant S_ .f32 0x7F800000#32
  let main_v1 : FVec F S4096x30 .f32 := broadcastInDim S4096x30 ![] bcast_S_S4096x30 main_cst
  let main_v2 : IVec S4096x30 1 := cmpf .olt main_v0 main_v1
  let main_c : IVec S_ 1 := constantI S_ 1 1#1
  let main_v3 : IVec S_ 1 := (fun x v => Host.reduce IntOp.andi x v reducesTo_S4096x30_S_d0_1 h_S_) main_v2 main_c
  let main_v4 : FVec F S4096x30 .f32 := Host.absf main_arg1
  let main_cst_0 : FVec F S_ .f32 := constant S_ .f32 0x7F800000#32
  let main_v5 : FVec F S4096x30 .f32 := broadcastInDim S4096x30 ![] bcast_S_S4096x30 main_cst_0
  let main_v6 : IVec S4096x30 1 := cmpf .olt main_v4 main_v5
  let main_c_1 : IVec S_ 1 := constantI S_ 1 1#1
  let main_v7 : IVec S_ 1 := (fun x v => Host.reduce IntOp.andi x v reducesTo_S4096x30_S_d0_1 h_S_) main_v6 main_c_1
  let main_v8 : IVec S_ 1 := andi main_v3 main_v7
  let main_v9 : FVec F S30x60 .f32 := Host.absf main_arg2
  let main_cst_2 : FVec F S_ .f32 := constant S_ .f32 0x7F800000#32
  let main_v10 : FVec F S30x60 .f32 := broadcastInDim S30x60 ![] bcast_S_S30x60 main_cst_2
  let main_v11 : IVec S30x60 1 := cmpf .olt main_v9 main_v10
  let main_c_3 : IVec S_ 1 := constantI S_ 1 1#1
  let main_v12 : IVec S_ 1 := (fun x v => Host.reduce IntOp.andi x v reducesTo_S30x60_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_v13 main_v16
-- ==== Kernel.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S1x60 : Shape := ⟨2, ![1, 60]⟩
abbrev S1x5 : Shape := ⟨2, ![1, 5]⟩
abbrev S4096x5 : Shape := ⟨2, ![4096, 5]⟩
abbrev S512x30 : Shape := ⟨2, ![512, 30]⟩
abbrev S512x5 : Shape := ⟨2, ![512, 5]⟩
abbrev S512x60 : Shape := ⟨2, ![512, 60]⟩
abbrev S4096x4096 : Shape := ⟨2, ![4096, 4096]⟩
abbrev S512x512 : Shape := ⟨2, ![512, 512]⟩
abbrev S512x1x5 : Shape := ⟨3, ![512, 1, 5]⟩
abbrev S1x512x5 : Shape := ⟨3, ![1, 512, 5]⟩
abbrev S512x512x5 : Shape := ⟨3, ![512, 512, 5]⟩

abbrev nBuf : Space → Nat
  | .hbm => 11
  | .vmem => 22
  | .smem => 0
  | _ => 0

abbrev bufTy : (tb : Table) → Fin (tcTables nBuf tb) → BufTy
  | .hbm, ⟨0, _⟩ => ⟨S4096x30, .f32⟩
  | .hbm, ⟨1, _⟩ => ⟨S4096x30, .f32⟩
  | .hbm, ⟨2, _⟩ => ⟨S30x60, .f32⟩
  | .hbm, ⟨3, _⟩ => ⟨S60, .f32⟩
  | .hbm, ⟨4, _⟩ => ⟨S60x5, .f32⟩
  | .hbm, ⟨5, _⟩ => ⟨S5, .f32⟩
  | .hbm, ⟨6, _⟩ => ⟨S1x60, .f32⟩
  | .hbm, ⟨7, _⟩ => ⟨S1x5, .f32⟩
  | .hbm, ⟨8, _⟩ => ⟨S4096x5, .f32⟩
  | .hbm, ⟨9, _⟩ => ⟨S4096x5, .f32⟩
  | .hbm, ⟨10, _⟩ => ⟨S4096x4096, .f32⟩
  | .local _ .vmem, ⟨0, _⟩ => ⟨S512x30, .f32⟩
  | .local _ .vmem, ⟨1, _⟩ => ⟨S512x30, .f32⟩
  | .local _ .vmem, ⟨2, _⟩ => ⟨S30x60, .f32⟩
  | .local _ .vmem, ⟨3, _⟩ => ⟨S1x60, .f32⟩
  | .local _ .vmem, ⟨4, _⟩ => ⟨S60x5, .f32⟩
  | .local _ .vmem, ⟨5, _⟩ => ⟨S1x5, .f32⟩
  | .local _ .vmem, ⟨6, _⟩ => ⟨S512x5, .f32⟩
  | .local _ .vmem, ⟨7, _⟩ => ⟨S512x5, .f32⟩
  | .local _ .vmem, ⟨8, _⟩ => ⟨S512x30, .f32⟩
  | .local _ .vmem, ⟨9, _⟩ => ⟨S512x30, .f32⟩
  | .local _ .vmem, ⟨10, _⟩ => ⟨S30x60, .f32⟩
  | .local _ .vmem, ⟨11, _⟩ => ⟨S1x60, .f32⟩
  | .local _ .vmem, ⟨12, _⟩ => ⟨S60x5, .f32⟩
  | .local _ .vmem, ⟨13, _⟩ => ⟨S1x5, .f32⟩
  | .local _ .vmem, ⟨14, _⟩ => ⟨S512x5, .f32⟩
  | .local _ .vmem, ⟨15, _⟩ => ⟨S512x5, .f32⟩
  | .local _ .vmem, ⟨16, _⟩ => ⟨S512x5, .f32⟩
  | .local _ .vmem, ⟨17, _⟩ => ⟨S512x5, .f32⟩
  | .local _ .vmem, ⟨18, _⟩ => ⟨S512x5, .f32⟩
  | .local _ .vmem, ⟨19, _⟩ => ⟨S512x5, .f32⟩
  | .local _ .vmem, ⟨20, _⟩ => ⟨S512x512, .f32⟩
  | .local _ .vmem, ⟨21, _⟩ => ⟨S512x512, .f32⟩
  | _, _ => ⟨S4096x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S30x60 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x60 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S60x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S60_S1x60 : S60.ShapeCasts S1x60
  shapeCasts_S5_S1x5 : S5.ShapeCasts S1x5
  inb_S512x30_S512x30_0_0 : ∀ a, (![0, 0] : Fin 2 → Nat) a + S512x30.size a ≤ S512x30.size a
  h_S512x30 : 0 < S512x30.numel
  inb_S30x60_S30x60_0_0 : ∀ a, (![0, 0] : Fin 2 → Nat) a + S30x60.size a ≤ S30x60.size a
  h_S30x60 : 0 < S30x60.numel
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S512x60 : S1x60.Broadcasts S512x60
  inb_S60x5_S60x5_0_0 : ∀ a, (![0, 0] : Fin 2 → Nat) a + S60x5.size a ≤ S60x5.size a
  h_S60x5 : 0 < S60x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  inb_S512x5_S512x5_0_0 : ∀ a, (![0, 0] : Fin 2 → Nat) a + S512x5.size a ≤ S512x5.size a
  h_S512x5 : 0 < S512x5.numel
  shapeCasts_S512x5_S512x5 : S512x5.ShapeCasts S512x5
  shapeCasts_S512x5_S512x1x5 : S512x5.ShapeCasts S512x1x5
  shapeCasts_S512x5_S1x512x5 : S512x5.ShapeCasts S1x512x5
  broadcasts_S512x1x5_S512x512x5 : S512x1x5.Broadcasts S512x512x5
  broadcasts_S1x512x5_S512x512x5 : S1x512x5.Broadcasts S512x512x5
  reduces_S512x512x5_S512x512 : S512x512x5.Reduces [2] S512x512
  inb_S512x512_S512x512_0_0 : ∀ a, (![0, 0] : Fin 2 → Nat) a + S512x512.size a ≤ S512x512.size a
  h_S512x512 : 0 < S512x512.numel
  dot_S512x30_S30x60_S512x60_1_0_0_1_n_n_wf : DotDims.WF S512x30 S30x60 S512x60 [1] [0] [0] [1] [] []
  dot_S512x60_S60x5_S512x5_1_0_0_1_n_n_wf : DotDims.WF S512x60 S60x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x30.size a ≤ S4096x30.size a
  hwx0_0 : ∀ i : grid0.Coords, EltTy.bits .f32 = 32 ∨ (Rect.block (s := S4096x30) S512x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x60.size a ≤ S30x60.size a
  hwx0_1 : ∀ i : grid0.Coords, EltTy.bits .f32 = 32 ∨ (Rect.block (s := S30x60) S30x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x60.size a ≤ S1x60.size a
  hwx0_2 : ∀ i : grid0.Coords, EltTy.bits .f32 = 32 ∨ (Rect.block (s := S1x60) S1x60.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S60x5.size a ≤ S60x5.size a
  hwx0_3 : ∀ i : grid0.Coords, EltTy.bits .f32 = 32 ∨ (Rect.block (s := S60x5) S60x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x5.size a ≤ S4096x5.size a
  hwx0_5 : ∀ i : grid0.Coords, EltTy.bits .f32 = 32 ∨ (Rect.block (s := S4096x5) S512x5.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x30.size a ≤ S4096x30.size a
  hwx1_0 : ∀ i : grid1.Coords, EltTy.bits .f32 = 32 ∨ (Rect.block (s := S4096x30) S512x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S30x60.size a ≤ S30x60.size a
  hwx1_1 : ∀ i : grid1.Coords, EltTy.bits .f32 = 32 ∨ (Rect.block (s := S30x60) S30x60.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x60.size a ≤ S1x60.size a
  hwx1_2 : ∀ i : grid1.Coords, EltTy.bits .f32 = 32 ∨ (Rect.block (s := S1x60) S1x60.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S60x5.size a ≤ S60x5.size a
  hwx1_3 : ∀ i : grid1.Coords, EltTy.bits .f32 = 32 ∨ (Rect.block (s := S60x5) S60x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x5.size a ≤ S4096x5.size a
  hwx1_5 : ∀ i : grid1.Coords, EltTy.bits .f32 = 32 ∨ (Rect.block (s := S4096x5) S512x5.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x5.size a ≤ S4096x5.size a
  hwx2_0 : ∀ i : grid2.Coords, EltTy.bits .f32 = 32 ∨ (Rect.block (s := S4096x5) S512x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x5.size a ≤ S4096x5.size a
  hwx2_1 : ∀ i : grid2.Coords, EltTy.bits .f32 = 32 ∨ (Rect.block (s := S4096x5) S512x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)

variable [Facts₀]

def dot_S512x30_S30x60_S512x60_1_0_0_1_n_n : DotDims S512x30 S30x60 S512x60 where
  lhsContracting := [1]
  rhsContracting := [0]
  lhsNonContracting := [0]
  rhsNonContracting := [1]
  lhsBatch := []
  rhsBatch := []
  wf := dot_S512x30_S30x60_S512x60_1_0_0_1_n_n_wf
def dot_S512x60_S60x5_S512x5_1_0_0_1_n_n : DotDims S512x60 S60x5 S512x5 where
  lhsContracting := [1]
  rhsContracting := [0]
  lhsNonContracting := [0]
  rhsNonContracting := [1]
  lhsBatch := []
  rhsBatch := []
  wf := dot_S512x60_S60x5_S512x5_1_0_0_1_n_n_wf

abbrev win0_0 : Pipeline.Window sig grid0 :=
  Pipeline.Window.ofSpec (Memref.whole main_arg0) S512x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S30x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S60x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S30x60.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x60.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S60x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S512x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S4096x60 : Shape := ⟨2, ![4096, 60]⟩
abbrev S1x60 : Shape := ⟨2, ![1, 60]⟩
abbrev S_ : Shape := ⟨0, ![]⟩
abbrev S4096x5 : Shape := ⟨2, ![4096, 5]⟩
abbrev S1x5 : Shape := ⟨2, ![1, 5]⟩
abbrev S4096x1x5 : Shape := ⟨3, ![4096, 1, 5]⟩
abbrev S1x4096x5 : Shape := ⟨3, ![1, 4096, 5]⟩
abbrev S4096x4096x5 : Shape := ⟨3, ![4096, 4096, 5]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x30, .f32⟩
  | .hbm, ⟨1, _⟩ => ⟨S4096x30, .f32⟩
  | .hbm, ⟨2, _⟩ => ⟨S30x60, .f32⟩
  | .hbm, ⟨3, _⟩ => ⟨S60, .f32⟩
  | .hbm, ⟨4, _⟩ => ⟨S60x5, .f32⟩
  | .hbm, ⟨5, _⟩ => ⟨S5, .f32⟩
  | .hbm, ⟨6, _⟩ => ⟨S4096x60, .f32⟩
  | .hbm, ⟨7, _⟩ => ⟨S1x60, .f32⟩
  | .hbm, ⟨8, _⟩ => ⟨S4096x60, .f32⟩
  | .hbm, ⟨9, _⟩ => ⟨S4096x60, .f32⟩
  | .hbm, ⟨10, _⟩ => ⟨S_, .f32⟩
  | .hbm, ⟨11, _⟩ => ⟨S4096x60, .f32⟩
  | .hbm, ⟨12, _⟩ => ⟨S4096x60, .f32⟩
  | .hbm, ⟨13, _⟩ => ⟨S4096x5, .f32⟩
  | .hbm, ⟨14, _⟩ => ⟨S1x5, .f32⟩
  | .hbm, ⟨15, _⟩ => ⟨S4096x5, .f32⟩
  | .hbm, ⟨16, _⟩ => ⟨S4096x5, .f32⟩
  | .hbm, ⟨17, _⟩ => ⟨S_, .f32⟩
  | .hbm, ⟨18, _⟩ => ⟨S4096x5, .f32⟩
  | .hbm, ⟨19, _⟩ => ⟨S4096x5, .f32⟩
  | .hbm, ⟨20, _⟩ => ⟨S4096x60, .f32⟩
  | .hbm, ⟨21, _⟩ => ⟨S1x60, .f32⟩
  | .hbm, ⟨22, _⟩ => ⟨S4096x60, .f32⟩
  | .hbm, ⟨23, _⟩ => ⟨S4096x60, .f32⟩
  | .hbm, ⟨24, _⟩ => ⟨S_, .f32⟩
  | .hbm, ⟨25, _⟩ => ⟨S4096x60, .f32⟩
  | .hbm, ⟨26, _⟩ => ⟨S4096x60, .f32⟩
  | .hbm, ⟨27, _⟩ => ⟨S4096x5, .f32⟩
  | .hbm, ⟨28, _⟩ => ⟨S1x5, .f32⟩
  | .hbm, ⟨29, _⟩ => ⟨S4096x5, .f32⟩
  | .hbm, ⟨30, _⟩ => ⟨S4096x5, .f32⟩
  | .hbm, ⟨31, _⟩ => ⟨S_, .f32⟩
  | .hbm, ⟨32, _⟩ => ⟨S4096x5, .f32⟩
  | .hbm, ⟨33, _⟩ => ⟨S4096x5, .f32⟩
  | .hbm, ⟨34, _⟩ => ⟨S4096x1x5, .f32⟩
  | .hbm, ⟨35, _⟩ => ⟨S1x4096x5, .f32⟩
  | .hbm, ⟨36, _⟩ => ⟨S4096x4096x5, .f32⟩
  | .hbm, ⟨37, _⟩ => ⟨S4096x4096x5, .f32⟩
  | .hbm, ⟨38, _⟩ => ⟨S4096x4096x5, .f32⟩
  | .hbm, ⟨39, _⟩ => ⟨S_, .f32⟩
  | .hbm, ⟨40, _⟩ => ⟨S4096x4096x5, .f32⟩
  | .hbm, ⟨41, _⟩ => ⟨S4096x4096x5, .f32⟩
  | .hbm, ⟨42, _⟩ => ⟨S_, .f32⟩
  | .hbm, ⟨43, _⟩ => ⟨S4096x4096, .f32⟩
  | .hbm, ⟨44, _⟩ => ⟨S4096x4096, .f32⟩
  | _, _ => ⟨S4096x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_cst : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call3_cst : Ref sig .tc := ⟨.hbm, 31, rfl⟩
abbrev main_call3_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call4_cst : Ref sig .tc := ⟨.hbm, 39, rfl⟩
abbrev main_call4_v0 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S60_S1x60_1 : S60.BroadcastsInDim S1x60 (![1] : Fin 1 → Fin S1x60.rank)
  bcast_S1x60_S4096x60_0_1 : S1x60.BroadcastsInDim S4096x60 (![0, 1] : Fin 2 → Fin S4096x60.rank)
  bcast_S_S4096x60 : S_.BroadcastsInDim S4096x60 (![] : Fin 0 → Fin S4096x60.rank)
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  bcast_S4096x5_S4096x1x5_0_2 : S4096x5.BroadcastsInDim S4096x1x5 (![0, 2] : Fin 2 → Fin S4096x1x5.rank)
  bcast_S4096x5_S1x4096x5_1_2 : S4096x5.BroadcastsInDim S1x4096x5 (![1, 2] : Fin 2 → Fin S1x4096x5.rank)
  bcast_S4096x1x5_S4096x4096x5_0_1_2 : S4096x1x5.BroadcastsInDim S4096x4096x5 (![0, 1, 2] : Fin 3 → Fin S4096x4096x5.rank)
  bcast_S1x4096x5_S4096x4096x5_0_1_2 : S1x4096x5.BroadcastsInDim S4096x4096x5 (![0, 1, 2] : Fin 3 → Fin S4096x4096x5.rank)
  bcast_S_S4096x4096x5 : S_.BroadcastsInDim S4096x4096x5 (![] : Fin 0 → Fin S4096x4096x5.rank)
  reducesTo_S4096x4096x5_S4096x4096_d2 : S4096x4096x5.ReducesTo [2] S4096x4096
  h_S_ : 0 < S_.numel
  dot_S4096x30_S30x60_S4096x60_1_0_0_1_n_n_wf : DotDims.WF S4096x30 S30x60 S4096x60 [1] [0] [0] [1] [] []
  dot_S4096x60_S60x5_S4096x5_1_0_0_1_n_n_wf : DotDims.WF S4096x60 S60x5 S4096x5 [1] [0] [0] [1] [] []

variable [Facts₀]

def dot_S4096x30_S30x60_S4096x60_1_0_0_1_n_n : DotDims S4096x30 S30x60 S4096x60 where
  lhsContracting := [1]
  rhsContracting := [0]
  lhsNonContracting := [0]
  rhsNonContracting := [1]
  lhsBatch := []
  rhsBatch := []
  wf := dot_S4096x30_S30x60_S4096x60_1_0_0_1_n_n_wf
def dot_S4096x60_S60x5_S4096x5_1_0_0_1_n_n : DotDims S4096x60 S60x5 S4096x5 where
  lhsContracting := [1]
  rhsContracting := [0]
  lhsNonContracting := [0]
  rhsNonContracting := [1]
  lhsBatch := []
  rhsBatch := []
  wf := dot_S4096x60_S60x5_S4096x5_1_0_0_1_n_n_wf

class Facts : Prop extends Facts₀ where

variable [Facts]
-- ==== Proof.Spec.lean ====
/-
  The mathematics both programs compute, over the extended reals.

  A set is a row of 30 numbers. Its embedding is a two-layer perceptron with clipping at zero after each layer:
  hidden_h = max (sum_j x_j * W1[j,h] + b1[h], 0) for the 60 hidden units, then
  embed_q = max (sum_h hidden_h * W2[h,q] + b2[q], 0) for the 5 output features.
  The score of a query row against a corpus row is minus the one-sided L1 distance of their embeddings:
  score = - sum_k max (q_k - c_k, 0).

  Everything is stated row by row over plain Fin-indexed functions, so that the same definitions read a block of 512
  rows of a kernel and the whole 4096-row array of the reference; embed and score lift them to arrays indexed by
  coordinates.
-/
import Idealize.ShloMosaic.PureOps.Ideal
import Idealize.ShloMosaic.Lib.ValueIdx

noncomputable section

namespace Cert.SetScore

open Idealize.ShloMosaic Idealize.ShloMosaic.ValueIdx

/-- A rank-2 array of extended reals with literal extents. -/
abbrev Arr2 (a b : Nat) : Type := (⟨2, ![a, b]⟩ : Shape).Idx → EReal
/-- A rank-1 array of extended reals with a literal extent. -/
abbrev Arr1 (a : Nat) : Type := (⟨1, ![a]⟩ : Shape).Idx → EReal

/-- Hidden unit h of one row: the row against column h of the first weight matrix, plus the bias, clipped at zero. -/
def hiddenOf (xr : Fin 30 → EReal) (w1 : Fin 30 → Fin 60 → EReal) (b1 : Fin 60 → EReal) (h : Fin 60) : EReal :=
  max ((∑ j : Fin 30, xr j * w1 j h) + b1 h) 0

/-- Output feature q of one row: the hidden units against column q of the second weight matrix, plus the bias,
    clipped at zero. -/
def embedOf (xr : Fin 30 → EReal) (w1 : Fin 30 → Fin 60 → EReal) (b1 : Fin 60 → EReal)
    (w2 : Fin 60 → Fin 5 → EReal) (b2 : Fin 5 → EReal) (q : Fin 5) : EReal :=
  max ((∑ h : Fin 60, hiddenOf xr w1 b1 h * w2 h q) + b2 q) 0

/-- Minus the one-sided L1 distance of two embedded rows. -/
def scoreOf (qr cr : Fin 5 → EReal) : EReal :=
  -(∑ k : Fin 5, max (qr k - cr k) 0)

/-- The embedding of every row of an array of n sets, the two biases given entry by entry. -/
def embedRows {n : Nat} (x : Arr2 n 30) (w1 : Arr2 30 60) (b1 : Fin 60 → EReal) (w2 : Arr2 60 5) (b2 : Fin 5 → EReal) :
    Arr2 n 5 :=
  fun i => embedOf (fun j => x (ix2 (i 0) j)) (fun j h => w1 (ix2 j h)) b1 (fun h q => w2 (ix2 h q)) b2 (i 1)

/-- The embedding of every row of an array of n sets, the biases as rank-1 arrays. -/
def embed {n : Nat} (x : Arr2 n 30) (w1 : Arr2 30 60) (b1 : Arr1 60) (w2 : Arr2 60 5) (b2 : Arr1 5) : Arr2 n 5 :=
  embedRows x w1 (fun h => b1 (ix1 h)) w2 (fun q => b2 (ix1 q))

/-- The score of every query row against every corpus row. -/
def score {n m : Nat} (q : Arr2 n 5) (c : Arr2 m 5) : Arr2 n m :=
  fun i => scoreOf (fun k => q (ix2 (i 0) k)) (fun k => c (ix2 (i 1) k))

/-- The whole result: scores of the embedded queries against the embedded corpus. -/
def result (queries corpus : Arr2 4096 30) (w1 : Arr2 30 60) (b1 : Arr1 60) (w2 : Arr2 60 5) (b2 : Arr1 5) :
    Arr2 4096 4096 :=
  score (embed queries w1 b1 w2 b2) (embed corpus w1 b1 w2 b2)

theorem embed_apply {n : Nat} (x : Arr2 n 30) (w1 : Arr2 30 60) (b1 : Arr1 60) (w2 : Arr2 60 5) (b2 : Arr1 5)
    (r : Fin n) (q : Fin 5) :
    embed x w1 b1 w2 b2 (ix2 r q) = embedOf (fun j => x (ix2 r j)) (fun j h => w1 (ix2 j h)) (fun h => b1 (ix1 h))
      (fun h q => w2 (ix2 h q)) (fun q => b2 (ix1 q)) q := rfl

theorem score_apply {n m : Nat} (q : Arr2 n 5) (c : Arr2 m 5) (r : Fin n) (s : Fin m) :
    score q c (ix2 r s) = scoreOf (fun k => q (ix2 r k)) (fun k => c (ix2 s k)) := rfl

/-- The row-wise embedding depends only on the values of its arguments. -/
theorem embedOf_congr {xr xr' : Fin 30 → EReal} {w1 w1' : Fin 30 → Fin 60 → EReal} {b1 b1' : Fin 60 → EReal}
    {w2 w2' : Fin 60 → Fin 5 → EReal} {b2 b2' : Fin 5 → EReal} {q q' : Fin 5}
    (hx : ∀ j, xr j = xr' j) (hw1 : ∀ j h, w1 j h = w1' j h) (hb1 : ∀ h, b1 h = b1' h)
    (hw2 : ∀ h q, w2 h q = w2' h q) (hb2 : ∀ q, b2 q = b2' q) (hq : q = q') :
    embedOf xr w1 b1 w2 b2 q = embedOf xr' w1' b1' w2' b2' q' := by
  obtain rfl : xr = xr' := funext hx
  obtain rfl : w1 = w1' := funext fun j => funext (hw1 j)
  obtain rfl : b1 = b1' := funext hb1
  obtain rfl : w2 = w2' := funext fun h => funext (hw2 h)
  obtain rfl : b2 = b2' := funext hb2
  rw [hq]

/-- The row-wise score depends only on the values of its arguments. -/
theorem scoreOf_congr {qr qr' cr cr' : Fin 5 → EReal} (hq : ∀ k, qr k = qr' k) (hc : ∀ k, cr k = cr' k) :
    scoreOf qr cr = scoreOf qr' cr' := by
  obtain rfl : qr = qr' := funext hq
  obtain rfl : cr = cr' := funext hc
  rfl

/-- Subtracting from zero is negation on every extended real, the infinities included. -/
theorem zero_sub_eq_neg (s : EReal) : (0 : EReal) - s = -s := zero_sub s

end Cert.SetScore

end
-- ==== Proof.EmbedBlock.lean ====
/-
  One block of the set embedding, read at a row and a feature.

  A block of the embedding kernel holds 512 rows. Its two matrix products accumulate into zero, so at the extended reals
  each is the plain sum over the contracted axis; the biases arrive as one-row arrays broadcast over the rows. Read at
  row p and feature q the stored value is the row-wise embedding of row p of the block.
-/
import proofs.«154457_j17910013624325_1_alg».proof.Proof.Gen.KernelIdeal.Skeleton
import proofs.«154457_j17910013624325_1_alg».proof.Proof.Spec
import Idealize.ShloMosaic.Lib.ValueIdx
import Idealize.ShloMosaic.Lib.ValueLayout
import Idealize.ShloMosaic.PureOps.Ideal.Laws

noncomputable section

namespace Cert.KernelIdeal.EmbedBlock

open Cert.KernelIdeal Cert.KernelIdeal.Gen Cert.SetScore
open Idealize.ShloMosaic Idealize.ShloMosaic.ValueIdx

/-! ## The operand indices of the two products, axis by axis -/

theorem mm1_l0 (i : S512x60.Idx) (q : dot_S512x30_S30x60_S512x60_1_0_0_1_n_n.contr.Idx) :
    (dot_S512x30_S30x60_S512x60_1_0_0_1_n_n.lhsIdx i q 0).val = (i 0).val := by
  unfold DotDims.lhsIdx
  rw [dif_neg (show ¬(0 : Fin S512x30.rank) ∈ dot_S512x30_S30x60_S512x60_1_0_0_1_n_n.lhsBatch by decide), dif_pos (show (0 : Fin S512x30.rank) ∈ dot_S512x30_S30x60_S512x60_1_0_0_1_n_n.lhsNonContracting by decide)]
  rfl
theorem mm1_l1 (i : S512x60.Idx) (q : dot_S512x30_S30x60_S512x60_1_0_0_1_n_n.contr.Idx) :
    (dot_S512x30_S30x60_S512x60_1_0_0_1_n_n.lhsIdx i q 1).val = (q ⟨0, by decide⟩).val :=
  dot_S512x30_S30x60_S512x60_1_0_0_1_n_n.lhsIdx_val_of_single rfl i q
theorem mm1_r0 (i : S512x60.Idx) (q : dot_S512x30_S30x60_S512x60_1_0_0_1_n_n.contr.Idx) :
    (dot_S512x30_S30x60_S512x60_1_0_0_1_n_n.rhsIdx i q 0).val = (q ⟨0, by decide⟩).val :=
  dot_S512x30_S30x60_S512x60_1_0_0_1_n_n.rhsIdx_val_of_single rfl i q
theorem mm1_r1 (i : S512x60.Idx) (q : dot_S512x30_S30x60_S512x60_1_0_0_1_n_n.contr.Idx) :
    (dot_S512x30_S30x60_S512x60_1_0_0_1_n_n.rhsIdx i q 1).val = (i 1).val := by
  unfold DotDims.rhsIdx
  rw [dif_neg (show ¬(1 : Fin S30x60.rank) ∈ dot_S512x30_S30x60_S512x60_1_0_0_1_n_n.rhsBatch by decide), dif_pos (show (1 : Fin S30x60.rank) ∈ dot_S512x30_S30x60_S512x60_1_0_0_1_n_n.rhsNonContracting by decide)]
  rfl

theorem mm2_l0 (i : S512x5.Idx) (q : dot_S512x60_S60x5_S512x5_1_0_0_1_n_n.contr.Idx) :
    (dot_S512x60_S60x5_S512x5_1_0_0_1_n_n.lhsIdx i q 0).val = (i 0).val := by
  unfold DotDims.lhsIdx
  rw [dif_neg (show ¬(0 : Fin S512x60.rank) ∈ dot_S512x60_S60x5_S512x5_1_0_0_1_n_n.lhsBatch by decide), dif_pos (show (0 : Fin S512x60.rank) ∈ dot_S512x60_S60x5_S512x5_1_0_0_1_n_n.lhsNonContracting by decide)]
  rfl
theorem mm2_l1 (i : S512x5.Idx) (q : dot_S512x60_S60x5_S512x5_1_0_0_1_n_n.contr.Idx) :
    (dot_S512x60_S60x5_S512x5_1_0_0_1_n_n.lhsIdx i q 1).val = (q ⟨0, by decide⟩).val :=
  dot_S512x60_S60x5_S512x5_1_0_0_1_n_n.lhsIdx_val_of_single rfl i q
theorem mm2_r0 (i : S512x5.Idx) (q : dot_S512x60_S60x5_S512x5_1_0_0_1_n_n.contr.Idx) :
    (dot_S512x60_S60x5_S512x5_1_0_0_1_n_n.rhsIdx i q 0).val = (q ⟨0, by decide⟩).val :=
  dot_S512x60_S60x5_S512x5_1_0_0_1_n_n.rhsIdx_val_of_single rfl i q
theorem mm2_r1 (i : S512x5.Idx) (q : dot_S512x60_S60x5_S512x5_1_0_0_1_n_n.contr.Idx) :
    (dot_S512x60_S60x5_S512x5_1_0_0_1_n_n.rhsIdx i q 1).val = (i 1).val := by
  unfold DotDims.rhsIdx
  rw [dif_neg (show ¬(1 : Fin S60x5.rank) ∈ dot_S512x60_S60x5_S512x5_1_0_0_1_n_n.rhsBatch by decide), dif_pos (show (1 : Fin S60x5.rank) ∈ dot_S512x60_S60x5_S512x5_1_0_0_1_n_n.rhsNonContracting by decide)]
  rfl

/-! ## The two products as sums -/

/-- Rows of the block against the first weight matrix: entry (p, c) is the sum over the 30 inputs. -/
theorem mm1_apply (x : FVec Ideal S512x30 .f32) (w : FVec Ideal S30x60 .f32) (p : Fin 512) (c : Fin 60) :
    matmul (F := Ideal) dot_S512x30_S30x60_S512x60_1_0_0_1_n_n none x w (constant (F := Ideal) S512x60 .f32 0x00000000#32) (ix2 p c)
      = ∑ k : Fin 30, x (ix2 p k) * w (ix2 k c) := by
  simp only [matmul]
  rw [Ideal.matmul_constant_zero_apply, ← Equiv.sum_comp (contrEquiv1 dot_S512x30_S30x60_S512x60_1_0_0_1_n_n 30 rfl rfl).symm]
  refine Finset.sum_congr rfl fun k _ => ?_
  have hk := contrEquiv1_symm_val dot_S512x30_S30x60_S512x60_1_0_0_1_n_n 30 rfl rfl k
  have el : dot_S512x30_S30x60_S512x60_1_0_0_1_n_n.lhsIdx (ix2 p c) ((contrEquiv1 dot_S512x30_S30x60_S512x60_1_0_0_1_n_n 30 rfl rfl).symm k) = ix2 p k := funext fun a => Fin.ext (by
    match a with
    | ⟨0, _⟩ => exact mm1_l0 _ _
    | ⟨1, _⟩ => exact (mm1_l1 _ _).trans hk)
  have er : dot_S512x30_S30x60_S512x60_1_0_0_1_n_n.rhsIdx (ix2 p c) ((contrEquiv1 dot_S512x30_S30x60_S512x60_1_0_0_1_n_n 30 rfl rfl).symm k) = ix2 k c := funext fun a => Fin.ext (by
    match a with
    | ⟨0, _⟩ => exact (mm1_r0 _ _).trans hk
    | ⟨1, _⟩ => exact mm1_r1 _ _)
  rw [el, er]

/-- Hidden activations against the second weight matrix: entry (p, c) is the sum over the 60 hidden units. -/
theorem mm2_apply (x : FVec Ideal S512x60 .f32) (w : FVec Ideal S60x5 .f32) (p : Fin 512) (c : Fin 5) :
    matmul (F := Ideal) dot_S512x60_S60x5_S512x5_1_0_0_1_n_n none x w (constant (F := Ideal) S512x5 .f32 0x00000000#32) (ix2 p c)
      = ∑ k : Fin 60, x (ix2 p k) * w (ix2 k c) := by
  simp only [matmul]
  rw [Ideal.matmul_constant_zero_apply, ← Equiv.sum_comp (contrEquiv1 dot_S512x60_S60x5_S512x5_1_0_0_1_n_n 60 rfl rfl).symm]
  refine Finset.sum_congr rfl fun k _ => ?_
  have hk := contrEquiv1_symm_val dot_S512x60_S60x5_S512x5_1_0_0_1_n_n 60 rfl rfl k
  have el : dot_S512x60_S60x5_S512x5_1_0_0_1_n_n.lhsIdx (ix2 p c) ((contrEquiv1 dot_S512x60_S60x5_S512x5_1_0_0_1_n_n 60 rfl rfl).symm k) = ix2 p k := funext fun a => Fin.ext (by
    match a with
    | ⟨0, _⟩ => exact mm2_l0 _ _
    | ⟨1, _⟩ => exact (mm2_l1 _ _).trans hk)
  have er : dot_S512x60_S60x5_S512x5_1_0_0_1_n_n.rhsIdx (ix2 p c) ((contrEquiv1 dot_S512x60_S60x5_S512x5_1_0_0_1_n_n 60 rfl rfl).symm k) = ix2 k c := funext fun a => Fin.ext (by
    match a with
    | ⟨0, _⟩ => exact (mm2_r0 _ _).trans hk
    | ⟨1, _⟩ => exact mm2_r1 _ _)
  rw [el, er]

/-! ## The stored value -/

/-- The zero the kernel clips at is the extended real zero. -/
theorem clip_zero : (Scalar.ofBits (F := Ideal) .f32 0x00000000#32 : EReal) = 0 := Ideal.ofBits_zero_f32

/-- What the first embedding kernel stores, at row p and feature q of its block, is the embedding of row p. -/
theorem pay0_apply (x : Vec Ideal S512x30 .f32) (w1 : Vec Ideal S30x60 .f32) (b1 : Vec Ideal S1x60 .f32)
    (w2 : Vec Ideal S60x5 .f32) (b2 : Vec Ideal S1x5 .f32) (p : Fin 512) (q : Fin 5) :
    k0_pay1 (F := Ideal) x w1 b1 w2 b2 (ix2 p q)
      = embedOf (fun j => x (ix2 p j)) (fun j h => w1 (ix2 j h)) (fun h => b1 (ix2 (0 : Fin 1) h))
          (fun h q => w2 (ix2 h q)) (fun q => b2 (ix2 (0 : Fin 1) q)) q := by
  unfold k0_pay1
  simp only [embedOf, hiddenOf, maximumf_apply, addf_apply, broadcast_apply, mm2_apply, mm1_apply,
    broadcastTo_1b_ab_apply, shapeCast_self, Ideal.ofBits_def, Ideal.ofBits_zero_f32]

/-- The second embedding kernel stores the same function of its own block. -/
theorem pay1_apply (x : Vec Ideal S512x30 .f32) (w1 : Vec Ideal S30x60 .f32) (b1 : Vec Ideal S1x60 .f32)
    (w2 : Vec Ideal S60x5 .f32) (b2 : Vec Ideal S1x5 .f32) (p : Fin 512) (q : Fin 5) :
    k1_pay1 (F := Ideal) x w1 b1 w2 b2 (ix2 p q)
      = embedOf (fun j => x (ix2 p j)) (fun j h => w1 (ix2 j h)) (fun h => b1 (ix2 (0 : Fin 1) h))
          (fun h q => w2 (ix2 h q)) (fun q => b2 (ix2 (0 : Fin 1) q)) q := by
  unfold k1_pay1
  simp only [embedOf, hiddenOf, maximumf_apply, addf_apply, broadcast_apply, mm2_apply, mm1_apply,
    broadcastTo_1b_ab_apply, shapeCast_self, Ideal.ofBits_def, Ideal.ofBits_zero_f32]

end Cert.KernelIdeal.EmbedBlock

end
-- ==== Proof.QueryRegion.lean ====
/-
  The first embedding region: the array it leaves is the embedding of the query array.

  The region walks 8 grid points. Point t fetches rows 512 t .. 512 t + 511 of the queries, the two weight matrices and
  the two one-row biases whole, and writes back rows 512 t .. 512 t + 511 of the output. What it writes is the row-wise
  embedding of the fetched rows, which are the same rows of the query array, so every written block is that block of ONE
  array, the embedding of the whole query array; the 8 blocks tile the output, so the output ends as that array. All of
  it is stated at any contents V of the buffers at the region's entry.
-/
import proofs.«154457_j17910013624325_1_alg».proof.Proof.Gen.KernelIdeal.Frame
import proofs.«154457_j17910013624325_1_alg».proof.Proof.EmbedBlock
import proofs.«154457_j17910013624325_1_alg».proof.Proof.Spec
import Idealize.ShloMosaic.Lib.Pipeline.Value
import Idealize.ShloMosaic.Lib.ValueIdx

set_option maxRecDepth 16384

noncomputable section

namespace Cert.KernelIdeal.QueryRegion

open Cert.KernelIdeal Cert.KernelIdeal.Gen Cert.SetScore
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block moves with the output's, every other block stays at the origin,
    and the output's row block index is below 8. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 7 :=
  (by decide +kernel : ∀ t : Fin grid0.N, _)

/-- Every row block of the output is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-! ## The fetched blocks are parts of the arrays -/

/-- Row p of the fetched query block is the row of the query array that row p of the written block lands on. -/
theorem read_rows (c : Dev nD) (t : Fin cfg0.N) (y : S512x5.Idx) (j : Fin 30) :
    iblk0 V c 0 t (ix2 (y 0) j) = V c main_arg0 (ix2 ((((cfg0.win 5).blk t).view.emb y) 0) j) := by
  obtain ⟨e0, e1, -⟩ := idx_facts t
  show V c main_arg0 (((cfg0.win 0).blk t).view.emb (ix2 (y 0) j)) = V c main_arg0 (ix2 ((((cfg0.win 5).blk t).view.emb y) 0) j)
  refine congrArg _ (funext fun a => Fin.ext ?_)
  match a with
  | ⟨0, _⟩ => show win0_0.index t (0 : Fin 2) * 512 + 1 * (y 0).val = win0_5.index t (0 : Fin 2) * 512 + 1 * (y 0).val; omega
  | ⟨1, _⟩ => show win0_0.index t (1 : Fin 2) * 30 + 1 * j.val = j.val; omega

/-- The first weight matrix is fetched whole. -/
theorem read_w1 (c : Dev nD) (t : Fin cfg0.N) (j : Fin 30) (h : Fin 60) :
    iblk0 V c 1 t (ix2 j h) = V c main_arg2 (ix2 j h) := by
  obtain ⟨-, -, e2, e3, -⟩ := idx_facts t
  show V c main_arg2 (((cfg0.win 1).blk t).view.emb (ix2 j h)) = V c main_arg2 (ix2 j h)
  refine congrArg _ (funext fun a => Fin.ext ?_)
  match a with
  | ⟨0, _⟩ => show win0_1.index t (0 : Fin 2) * 30 + 1 * j.val = j.val; omega
  | ⟨1, _⟩ => show win0_1.index t (1 : Fin 2) * 60 + 1 * h.val = h.val; omega

/-- The first bias row is fetched whole. -/
theorem read_b1 (c : Dev nD) (t : Fin cfg0.N) (h : Fin 60) :
    iblk0 V c 2 t (ix2 (0 : Fin 1) h) = V c main_v0 (ix2 (0 : Fin 1) h) := by
  obtain ⟨-, -, -, -, e4, e5, -⟩ := idx_facts t
  show V c main_v0 (((cfg0.win 2).blk t).view.emb (ix2 (0 : Fin 1) h)) = V c main_v0 (ix2 (0 : Fin 1) h)
  refine congrArg _ (funext fun a => Fin.ext ?_)
  match a with
  | ⟨0, _⟩ => show win0_2.index t (0 : Fin 2) * 1 + 1 * 0 = 0; omega
  | ⟨1, _⟩ => show win0_2.index t (1 : Fin 2) * 60 + 1 * h.val = h.val; omega

/-- The second weight matrix is fetched whole. -/
theorem read_w2 (c : Dev nD) (t : Fin cfg0.N) (h : Fin 60) (q : Fin 5) :
    iblk0 V c 3 t (ix2 h q) = V c main_arg4 (ix2 h q) := by
  obtain ⟨-, -, -, -, -, -, e6, e7, -⟩ := idx_facts t
  show V c main_arg4 (((cfg0.win 3).blk t).view.emb (ix2 h q)) = V c main_arg4 (ix2 h q)
  refine congrArg _ (funext fun a => Fin.ext ?_)
  match a with
  | ⟨0, _⟩ => show win0_3.index t (0 : Fin 2) * 60 + 1 * h.val = h.val; omega
  | ⟨1, _⟩ => show win0_3.index t (1 : Fin 2) * 5 + 1 * q.val = q.val; omega

/-- The second bias row is fetched whole. -/
theorem read_b2 (c : Dev nD) (t : Fin cfg0.N) (q : Fin 5) :
    iblk0 V c 4 t (ix2 (0 : Fin 1) q) = V c main_v1 (ix2 (0 : Fin 1) q) := by
  obtain ⟨-, -, -, -, -, -, -, -, e8, e9, -⟩ := idx_facts t
  show V c main_v1 (((cfg0.win 4).blk t).view.emb (ix2 (0 : Fin 1) q)) = V c main_v1 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 5 + 1 * q.val = q.val; omega

/-- A written block keeps the feature coordinate. -/
theorem feature_kept (t : Fin cfg0.N) (y : S512x5.Idx) : y 1 = (((cfg0.win 5).blk t).view.emb y) 1 := by
  obtain ⟨-, -, -, -, -, -, -, -, -, -, e10, -⟩ := idx_facts t
  refine Fin.ext ?_
  show (y 1).val = win0_5.index t (1 : Fin 2) * 5 + 1 * (y 1).val
  omega

/-! ## What a point writes back -/

/-- What point t writes back is block t of the embedding of the whole query array. -/
theorem flushed_eq (c : Dev nD) (t : Fin cfg0.N) :
    (dat0 V c).flushed 5 t = ((cfg0.win 5).blk t).view.read (Elt Ideal)
      (embedRows (V c main_arg0) (V c main_arg2) (fun h => V c main_v0 (ix2 (0 : Fin 1) h)) (V c main_arg4)
        (fun q => V c main_v1 (ix2 (0 : Fin 1) q))) := by
  show (cfg0.win 5).cut (grid0.coords t) ((dat0 V c).after 5 t) = _
  rw [after0_5]
  unfold out0_5
  rw [View.canon_unit_zero hz]
  simp only [View.ld_unit_zero (S := S512x30) hz, View.ld_unit_zero (S := S30x60) hz, View.ld_unit_zero (S := S1x60) hz,
    View.ld_unit_zero (S := S60x5) hz, View.ld_unit_zero (S := S1x5) hz]
  funext y
  show k0_pay1 (F := Ideal) (iblk0 V c 0 t) (iblk0 V c 1 t) (iblk0 V c 2 t) (iblk0 V c 3 t) (iblk0 V c 4 t) y
      = (embedRows (V c main_arg0) (V c main_arg2) (fun h => V c main_v0 (ix2 (0 : Fin 1) h)) (V c main_arg4)
        (fun q => V c main_v1 (ix2 (0 : Fin 1) q))) (((cfg0.win 5).blk t).view.emb y)
  refine (congrArg (k0_pay1 (F := Ideal) (iblk0 V c 0 t) (iblk0 V c 1 t) (iblk0 V c 2 t) (iblk0 V c 3 t) (iblk0 V c 4 t)) (eq_ix2 y)).trans ?_
  refine (EmbedBlock.pay0_apply (iblk0 V c 0 t) (iblk0 V c 1 t) (iblk0 V c 2 t) (iblk0 V c 3 t) (iblk0 V c 4 t) (y 0) (y 1)).trans ?_
  exact embedOf_congr (fun j => read_rows V c t y j) (fun j h => read_w1 V c t j h) (fun h => read_b1 V c t h)
    (fun h q => read_w2 V c t h q) (fun q => read_b2 V c t q) (feature_kept t y)

/-! ## The blocks tile the output -/

/-- An index of the output is in point t's block iff each coordinate is in the block's range on its axis. -/
theorem mem_blk (t : Fin cfg0.N) (i : S4096x5.Idx) :
    i ∈ ((cfg0.win 5).blk t).view.set ↔ ∀ a : Fin 2, win0_5.index t a * S512x5.size a ≤ (i a).val ∧ (i a).val < win0_5.index t a * S512x5.size a + S512x5.size a := by
  show i ∈ ((View.whole main_v2).slice (win0_5.rect t)).set ↔ _
  rw [View.set_slice_whole, Rect.mem_set_unit]
  exact Iff.rfl

/-- Row r of the output is written by the point whose row block is r / 512. -/
theorem cover (i : S4096x5.Idx) : ∃ t : Fin cfg0.N, (cfg0.win 5).flush t = true ∧ i ∈ ((cfg0.win 5).blk t).view.set := by
  have hi0 : (i 0).val < 4096 := (i 0).isLt
  have hi1 : (i 1).val < 5 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 5 ≤ (i 1).val ∧ (i 1).val < win0_5.index t (1 : Fin 2) * 5 + 5; omega

/-- The output array after the region: the embedding of the query array as the region found it. -/
theorem array_eq (c : Dev nD) :
    (dat0 V c).arrAt 5 cfg0.N = (embedRows (V c main_arg0) (V c main_arg2) (fun h => V c main_v0 (ix2 (0 : Fin 1) h)) (V c main_arg4)
        (fun q => V c main_v1 (ix2 (0 : Fin 1) q))) :=
  (dat0 V c).arrAt_eq_of_cover 5 _ (fun t _ => flushed_eq V c t) cover

end Cert.KernelIdeal.QueryRegion

end
-- ==== Proof.CorpusRegion.lean ====
/-
  The second embedding region: the array it leaves is the embedding of the corpus array.

  The region walks 8 grid points. Point t fetches rows 512 t .. 512 t + 511 of the corpus, the two weight matrices and
  the two one-row biases whole, and writes back rows 512 t .. 512 t + 511 of the output. What it writes is the row-wise
  embedding of the fetched rows, which are the same rows of the corpus array, so every written block is that block of ONE
  array, the embedding of the whole corpus array; the 8 blocks tile the output, so the output ends as that array. All of
  it is stated at any contents V of the buffers at the region's entry.
-/
import proofs.«154457_j17910013624325_1_alg».proof.Proof.Gen.KernelIdeal.Frame
import proofs.«154457_j17910013624325_1_alg».proof.Proof.EmbedBlock
import proofs.«154457_j17910013624325_1_alg».proof.Proof.Spec
import Idealize.ShloMosaic.Lib.Pipeline.Value
import Idealize.ShloMosaic.Lib.ValueIdx

set_option maxRecDepth 16384

noncomputable section

namespace Cert.KernelIdeal.CorpusRegion

open Cert.KernelIdeal Cert.KernelIdeal.Gen Cert.SetScore
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block moves with the output's, every other block stays at the origin,
    and the output's row block index is below 8. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 7 :=
  (by decide +kernel : ∀ t : Fin grid1.N, _)

/-- Every row block of the output is some point's. -/
theorem idx_onto : ∀ q0 : Fin 8, ∃ t : Fin cfg1.N, win1_5.index t = ![q0.val, 0] :=
  (by decide +kernel : ∀ q0 : Fin 8, ∃ t : Fin grid1.N, win1_5.index t = ![q0.val, 0])

/-! ## The fetched blocks are parts of the arrays -/

/-- Row p of the fetched corpus block is the row of the corpus array that row p of the written block lands on. -/
theorem read_rows (c : Dev nD) (t : Fin cfg1.N) (y : S512x5.Idx) (j : Fin 30) :
    iblk1 V c 0 t (ix2 (y 0) j) = V c main_arg1 (ix2 ((((cfg1.win 5).blk t).view.emb y) 0) j) := by
  obtain ⟨e0, e1, -⟩ := idx_facts t
  show V c main_arg1 (((cfg1.win 0).blk t).view.emb (ix2 (y 0) j)) = V c main_arg1 (ix2 ((((cfg1.win 5).blk t).view.emb y) 0) j)
  refine congrArg _ (funext fun a => Fin.ext ?_)
  match a with
  | ⟨0, _⟩ => show win1_0.index t (0 : Fin 2) * 512 + 1 * (y 0).val = win1_5.index t (0 : Fin 2) * 512 + 1 * (y 0).val; omega
  | ⟨1, _⟩ => show win1_0.index t (1 : Fin 2) * 30 + 1 * j.val = j.val; omega

/-- The first weight matrix is fetched whole. -/
theorem read_w1 (c : Dev nD) (t : Fin cfg1.N) (j : Fin 30) (h : Fin 60) :
    iblk1 V c 1 t (ix2 j h) = V c main_arg2 (ix2 j h) := by
  obtain ⟨-, -, e2, e3, -⟩ := idx_facts t
  show V c main_arg2 (((cfg1.win 1).blk t).view.emb (ix2 j h)) = V c main_arg2 (ix2 j h)
  refine congrArg _ (funext fun a => Fin.ext ?_)
  match a with
  | ⟨0, _⟩ => show win1_1.index t (0 : Fin 2) * 30 + 1 * j.val = j.val; omega
  | ⟨1, _⟩ => show win1_1.index t (1 : Fin 2) * 60 + 1 * h.val = h.val; omega

/-- The first bias row is fetched whole. -/
theorem read_b1 (c : Dev nD) (t : Fin cfg1.N) (h : Fin 60) :
    iblk1 V c 2 t (ix2 (0 : Fin 1) h) = V c main_v0 (ix2 (0 : Fin 1) h) := by
  obtain ⟨-, -, -, -, e4, e5, -⟩ := idx_facts t
  show V c main_v0 (((cfg1.win 2).blk t).view.emb (ix2 (0 : Fin 1) h)) = V c main_v0 (ix2 (0 : Fin 1) h)
  refine congrArg _ (funext fun a => Fin.ext ?_)
  match a with
  | ⟨0, _⟩ => show win1_2.index t (0 : Fin 2) * 1 + 1 * 0 = 0; omega
  | ⟨1, _⟩ => show win1_2.index t (1 : Fin 2) * 60 + 1 * h.val = h.val; omega

/-- The second weight matrix is fetched whole. -/
theorem read_w2 (c : Dev nD) (t : Fin cfg1.N) (h : Fin 60) (q : Fin 5) :
    iblk1 V c 3 t (ix2 h q) = V c main_arg4 (ix2 h q) := by
  obtain ⟨-, -, -, -, -, -, e6, e7, -⟩ := idx_facts t
  show V c main_arg4 (((cfg1.win 3).blk t).view.emb (ix2 h q)) = V c main_arg4 (ix2 h q)
  refine congrArg _ (funext fun a => Fin.ext ?_)
  match a with
  | ⟨0, _⟩ => show win1_3.index t (0 : Fin 2) * 60 + 1 * h.val = h.val; omega
  | ⟨1, _⟩ => show win1_3.index t (1 : Fin 2) * 5 + 1 * q.val = q.val; omega

/-- The second bias row is fetched whole. -/
theorem read_b2 (c : Dev nD) (t : Fin cfg1.N) (q : Fin 5) :
    iblk1 V c 4 t (ix2 (0 : Fin 1) q) = V c main_v1 (ix2 (0 : Fin 1) q) := by
  obtain ⟨-, -, -, -, -, -, -, -, e8, e9, -⟩ := idx_facts t
  show V c main_v1 (((cfg1.win 4).blk t).view.emb (ix2 (0 : Fin 1) q)) = V c main_v1 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 5 + 1 * q.val = q.val; omega

/-- A written block keeps the feature coordinate. -/
theorem feature_kept (t : Fin cfg1.N) (y : S512x5.Idx) : y 1 = (((cfg1.win 5).blk t).view.emb y) 1 := by
  obtain ⟨-, -, -, -, -, -, -, -, -, -, e10, -⟩ := idx_facts t
  refine Fin.ext ?_
  show (y 1).val = win1_5.index t (1 : Fin 2) * 5 + 1 * (y 1).val
  omega

/-! ## What a point writes back -/

/-- What point t writes back is block t of the embedding of the whole corpus array. -/
theorem flushed_eq (c : Dev nD) (t : Fin cfg1.N) :
    (dat1 V c).flushed 5 t = ((cfg1.win 5).blk t).view.read (Elt Ideal)
      (embedRows (V c main_arg1) (V c main_arg2) (fun h => V c main_v0 (ix2 (0 : Fin 1) h)) (V c main_arg4)
        (fun q => V c main_v1 (ix2 (0 : Fin 1) q))) := by
  show (cfg1.win 5).cut (grid1.coords t) ((dat1 V c).after 5 t) = _
  rw [after1_5]
  unfold out1_5
  rw [View.canon_unit_zero hz]
  simp only [View.ld_unit_zero (S := S512x30) hz, View.ld_unit_zero (S := S30x60) hz, View.ld_unit_zero (S := S1x60) hz,
    View.ld_unit_zero (S := S60x5) hz, View.ld_unit_zero (S := S1x5) hz]
  funext y
  show k1_pay1 (F := Ideal) (iblk1 V c 0 t) (iblk1 V c 1 t) (iblk1 V c 2 t) (iblk1 V c 3 t) (iblk1 V c 4 t) y
      = (embedRows (V c main_arg1) (V c main_arg2) (fun h => V c main_v0 (ix2 (0 : Fin 1) h)) (V c main_arg4)
        (fun q => V c main_v1 (ix2 (0 : Fin 1) q))) (((cfg1.win 5).blk t).view.emb y)
  refine (congrArg (k1_pay1 (F := Ideal) (iblk1 V c 0 t) (iblk1 V c 1 t) (iblk1 V c 2 t) (iblk1 V c 3 t) (iblk1 V c 4 t)) (eq_ix2 y)).trans ?_
  refine (EmbedBlock.pay1_apply (iblk1 V c 0 t) (iblk1 V c 1 t) (iblk1 V c 2 t) (iblk1 V c 3 t) (iblk1 V c 4 t) (y 0) (y 1)).trans ?_
  exact embedOf_congr (fun j => read_rows V c t y j) (fun j h => read_w1 V c t j h) (fun h => read_b1 V c t h)
    (fun h q => read_w2 V c t h q) (fun q => read_b2 V c t q) (feature_kept t y)

/-! ## The blocks tile the output -/

/-- An index of the output is in point t's block iff each coordinate is in the block's range on its axis. -/
theorem mem_blk (t : Fin cfg1.N) (i : S4096x5.Idx) :
    i ∈ ((cfg1.win 5).blk t).view.set ↔ ∀ a : Fin 2, win1_5.index t a * S512x5.size a ≤ (i a).val ∧ (i a).val < win1_5.index t a * S512x5.size a + S512x5.size a := by
  show i ∈ ((View.whole main_v3).slice (win1_5.rect t)).set ↔ _
  rw [View.set_slice_whole, Rect.mem_set_unit]
  exact Iff.rfl

/-- Row r of the output is written by the point whose row block is r / 512. -/
theorem cover (i : S4096x5.Idx) : ∃ t : Fin cfg1.N, (cfg1.win 5).flush t = true ∧ i ∈ ((cfg1.win 5).blk t).view.set := by
  have hi0 : (i 0).val < 4096 := (i 0).isLt
  have hi1 : (i 1).val < 5 := (i 1).isLt
  obtain ⟨t, ht⟩ := idx_onto ⟨(i 0).val / 512, by omega⟩
  have q0 : win1_5.index t (0 : Fin 2) = (i 0).val / 512 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 5 ≤ (i 1).val ∧ (i 1).val < win1_5.index t (1 : Fin 2) * 5 + 5; omega

/-- The output array after the region: the embedding of the corpus array as the region found it. -/
theorem array_eq (c : Dev nD) :
    (dat1 V c).arrAt 5 cfg1.N = (embedRows (V c main_arg1) (V c main_arg2) (fun h => V c main_v0 (ix2 (0 : Fin 1) h)) (V c main_arg4)
        (fun q => V c main_v1 (ix2 (0 : Fin 1) q))) :=
  (dat1 V c).arrAt_eq_of_cover 5 _ (fun t _ => flushed_eq V c t) cover

end Cert.KernelIdeal.CorpusRegion

end
-- ==== Proof.PairBlock.lean ====
/-
  One block of the pairwise score, read at a query row and a corpus row.

  A block of the score kernel holds 512 embedded query rows and 512 embedded corpus rows. The query block is given a unit
  axis in the middle and repeated along it, the corpus block a unit axis in front and repeated along it, so that entry
  (p, s, k) of the difference is q[p,k] - c[s,k]; it is clipped at zero, summed over the 5 features, and subtracted from
  zero. Read at (p, s) the stored value is the row-wise score of query row p against corpus row s.
-/
import proofs.«154457_j17910013624325_1_alg».proof.Proof.Gen.KernelIdeal.Skeleton
import proofs.«154457_j17910013624325_1_alg».proof.Proof.Spec
import Idealize.ShloMosaic.Lib.ValueIdx
import Idealize.ShloMosaic.Lib.ValueLayout
import Idealize.ShloMosaic.PureOps.Ideal.Laws

noncomputable section

namespace Cert.KernelIdeal.PairBlock

open Cert.KernelIdeal Cert.KernelIdeal.Gen Cert.SetScore
open Idealize.ShloMosaic Idealize.ShloMosaic.ValueIdx

variable {α : Type}

/-! ## The layout steps, read at coordinates -/

/-- An [a, b] array given a unit axis in the middle reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array repeated along its middle axis reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array repeated along its leading axis reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The sum over the feature axis: entry (p, s) is the sum over k of the operand at (p, s, k). -/
theorem feature_sum_apply (v : FVec Ideal S512x512x5 .f32) (hφ : FKind.Formats .f32)
    (hacc : (0x00000000#32 : BitVec 32) = 0x00000000#32) (p s : Fin 512) :
    multiReduction (F := Ideal) .add [2] S512x512 v 0x00000000#32 reduces_S512x512x5_S512x512 hφ hacc (ix2 p s)
      = ∑ k : Fin 5, v (ix3 p s k) := by
  refine (Ideal.multiReduction_add_single v 0x00000000#32 reduces_S512x512x5_S512x512 hφ hacc (ix2 p s)).trans ?_
  refine Finset.sum_congr rfl fun k _ => congrArg v ?_
  funext a
  apply Fin.ext
  match a with
  | ⟨0, _⟩ => rfl
  | ⟨1, _⟩ => rfl
  | ⟨2, _⟩ => rfl

/-! ## The stored value -/

/-- What the score kernel stores, at query row p and corpus row s of its block, is the score of the two rows. -/
theorem pay_apply (q : Vec Ideal S512x5 .f32) (c : Vec Ideal S512x5 .f32) (p s : Fin 512) :
    k2_pay1 (F := Ideal) q c (ix2 p s) = scoreOf (fun k => q (ix2 p k)) (fun k => c (ix2 s k)) := by
  unfold k2_pay1
  rw [subf_apply, broadcast_apply]
  refine (congrArg (fun z : EReal => FloatOps.ofBits (F := Ideal) .f32 0x00000000#32 - z) (feature_sum_apply _ _ _ p s)).trans ?_
  simp only [scoreOf, maximumf_apply, subf_apply, broadcast_apply, broadcastTo_a1c_abc_apply, broadcastTo_1bc_abc_apply,
    shapeCast_ab_a1b_apply, shapeCast_ab_1ab_apply, shapeCast_self, Ideal.ofBits_def, Ideal.ofBits_zero_f32, zero_sub]

end Cert.KernelIdeal.PairBlock

end
-- ==== Proof.ScoreRegion.lean ====
/-
  The score region: the array it leaves is the score of the two embedded arrays it finds.

  The region walks an 8 by 8 grid. Point (a, b) fetches rows 512 a .. 512 a + 511 of the embedded queries and rows
  512 b .. 512 b + 511 of the embedded corpus and writes back the 512 by 512 block at (a, b) of the output. What it
  writes at (p, s) is the row-wise score of fetched query row p against fetched corpus row s, which are rows
  512 a + p and 512 b + s of the two arrays: every written block is that block of ONE array, the score of the whole
  arrays, and the 64 blocks tile the output. All of it is stated at any contents V of the buffers at the region's entry.
-/
import proofs.«154457_j17910013624325_1_alg».proof.Proof.Gen.KernelIdeal.Frame
import proofs.«154457_j17910013624325_1_alg».proof.Proof.PairBlock
import proofs.«154457_j17910013624325_1_alg».proof.Proof.Spec
import Idealize.ShloMosaic.Lib.Pipeline.Value
import Idealize.ShloMosaic.Lib.ValueIdx

set_option maxRecDepth 16384

noncomputable section

namespace Cert.KernelIdeal.ScoreRegion

open Cert.KernelIdeal Cert.KernelIdeal.Gen Cert.SetScore
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the query block moves with the output's row block, the corpus block with the
    output's column block, and both block indices of the output are below 8. -/
theorem idx_facts : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)

/-- Every block of the output is some point's. -/
theorem idx_onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-! ## The fetched blocks are parts of the arrays -/

/-- Row p of the fetched query block is the row of the embedded queries that row p of the written block lands on. -/
theorem read_q (c : Dev nD) (t : Fin cfg2.N) (y : S512x512.Idx) (k : Fin 5) :
    iblk2 V c 0 t (ix2 (y 0) k) = V c main_v2 (ix2 ((((cfg2.win 2).blk t).view.emb y) 0) k) := by
  obtain ⟨e0, e1, -⟩ := idx_facts t
  show V c main_v2 (((cfg2.win 0).blk t).view.emb (ix2 (y 0) k)) = V c main_v2 (ix2 ((((cfg2.win 2).blk t).view.emb y) 0) k)
  refine congrArg _ (funext fun a => Fin.ext ?_)
  match a with
  | ⟨0, _⟩ => show win2_0.index t (0 : Fin 2) * 512 + 1 * (y 0).val = win2_2.index t (0 : Fin 2) * 512 + 1 * (y 0).val; omega
  | ⟨1, _⟩ => show win2_0.index t (1 : Fin 2) * 5 + 1 * k.val = k.val; omega

/-- Row s of the fetched corpus block is the row of the embedded corpus that column s of the written block lands on. -/
theorem read_c (c : Dev nD) (t : Fin cfg2.N) (y : S512x512.Idx) (k : Fin 5) :
    iblk2 V c 1 t (ix2 (y 1) k) = V c main_v3 (ix2 ((((cfg2.win 2).blk t).view.emb y) 1) k) := by
  obtain ⟨-, -, e2, e3, -⟩ := idx_facts t
  show V c main_v3 (((cfg2.win 1).blk t).view.emb (ix2 (y 1) k)) = V c main_v3 (ix2 ((((cfg2.win 2).blk t).view.emb y) 1) k)
  refine congrArg _ (funext fun a => Fin.ext ?_)
  match a with
  | ⟨0, _⟩ => show win2_1.index t (0 : Fin 2) * 512 + 1 * (y 1).val = win2_2.index t (1 : Fin 2) * 512 + 1 * (y 1).val; omega
  | ⟨1, _⟩ => show win2_1.index t (1 : Fin 2) * 5 + 1 * k.val = k.val; omega

/-! ## What a point writes back -/

/-- What point t writes back is block t of the score of the whole embedded arrays. -/
theorem flushed_eq (c : Dev nD) (t : Fin cfg2.N) :
    (dat2 V c).flushed 2 t = ((cfg2.win 2).blk t).view.read (Elt Ideal) (score (V c main_v2) (V c main_v3)) := by
  show (cfg2.win 2).cut (grid2.coords t) ((dat2 V c).after 2 t) = _
  rw [after2_2]
  unfold out2_2
  rw [View.canon_unit_zero hz]
  simp only [View.ld_unit_zero (S := S512x5) hz]
  funext y
  show k2_pay1 (F := Ideal) (iblk2 V c 0 t) (iblk2 V c 1 t) y
      = score (V c main_v2) (V c main_v3) (((cfg2.win 2).blk t).view.emb y)
  refine (congrArg (k2_pay1 (F := Ideal) (iblk2 V c 0 t) (iblk2 V c 1 t)) (eq_ix2 y)).trans ?_
  refine (PairBlock.pay_apply (iblk2 V c 0 t) (iblk2 V c 1 t) (y 0) (y 1)).trans ?_
  exact scoreOf_congr (fun k => read_q V c t y k) (fun k => read_c V c t y k)

/-! ## The blocks tile the output -/

/-- An index of the output is in point t's block iff each coordinate is in the block's range on its axis. -/
theorem mem_blk (t : Fin cfg2.N) (i : S4096x4096.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v4).slice (win2_2.rect t)).set ↔ _
  rw [View.set_slice_whole, Rect.mem_set_unit]
  exact Iff.rfl

/-- Entry (r, s) of the output is written by the point whose block is (r / 512, s / 512). -/
theorem cover (i : S4096x4096.Idx) : ∃ t : Fin cfg2.N, (cfg2.win 2).flush t = true ∧ i ∈ ((cfg2.win 2).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The output array after the region: the score of the two embedded arrays as the region found them. -/
theorem array_eq (c : Dev nD) :
    (dat2 V c).arrAt 2 cfg2.N = score (V c main_v2) (V c main_v3) :=
  (dat2 V c).arrAt_eq_of_cover 2 _ (fun t _ => flushed_eq V c t) cover

end Cert.KernelIdeal.ScoreRegion

end
-- ==== Proof.KernelValue.lean ====
/-
  The idealized kernel program computes the specification.

  The run passes four boundaries. After the two host reshapes the biases sit as one-row arrays whose row is the bias
  vector; nothing else has changed. The first region then leaves the embedding of the query array, the second the
  embedding of the corpus array (each finds the weights and the bias rows as the reshapes left them, since a region
  writes only its own output), and the third the score of those two arrays: the result of the specification at the
  six argument arrays.
-/
import proofs.«154457_j17910013624325_1_alg».proof.Proof.Gen.KernelIdeal.Frame
import proofs.«154457_j17910013624325_1_alg».proof.Proof.QueryRegion
import proofs.«154457_j17910013624325_1_alg».proof.Proof.CorpusRegion
import proofs.«154457_j17910013624325_1_alg».proof.Proof.ScoreRegion
import proofs.«154457_j17910013624325_1_alg».proof.Proof.Spec
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.SetScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## After the host reshapes -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))).trans rfl

/-- The first bias as a one-row array: its row is the bias vector. -/
theorem bias1_row (c : Dev nD) (h : Fin 60) :
    V1 m ρ c main_v0 (ix2 (0 : Fin 1) h) = (m ((c : Thread nD τ).loc main_arg3)) (ix1 h) := by
  have e : (V1 m ρ c main_v0 : S1x60.Idx → EReal) = shapeCast S1x60 (m ((c : Thread nD τ).loc main_arg3)) shapeCasts_S60_S1x60 := by
    show StableHlo.after hostOps0 (W0 m ρ c) (Proc.devRef .tc main_v0) = _
    after_results
    rfl
  rw [e]
  exact shapeCast_a_1a_apply _ _ _ _

/-- The second bias as a one-row array: its row is the bias vector. -/
theorem bias2_row (c : Dev nD) (q : Fin 5) :
    V1 m ρ c main_v1 (ix2 (0 : Fin 1) q) = (m ((c : Thread nD τ).loc main_arg5)) (ix1 q) := by
  have e : (V1 m ρ c main_v1 : S1x5.Idx → EReal) = shapeCast S1x5 (m ((c : Thread nD τ).loc main_arg5)) shapeCasts_S5_S1x5 := by
    show StableHlo.after hostOps0 (W0 m ρ c) (Proc.devRef .tc main_v1) = _
    after_results
    rfl
  rw [e]
  exact shapeCast_a_1a_apply _ _ _ _

/-! ## After the first region: the embedded queries -/

theorem queries_embedded (c : Dev nD) :
    W2 m ρ c (Proc.devRef .tc main_v2) = embed (m ((c : Thread nD τ).loc main_arg0)) (m ((c : Thread nD τ).loc main_arg2)) (m ((c : Thread nD τ).loc main_arg3)) (m ((c : Thread nD τ).loc main_arg4)) (m ((c : Thread nD τ).loc main_arg5)) := by
  refine (W2_arr m ρ c 5).trans ((QueryRegion.array_eq (V1 m ρ) c).trans ?_)
  have a0 : V1 m ρ c main_arg0 = (m ((c : Thread nD τ).loc main_arg0)) := W1_arg0 m ρ c
  have a2 : V1 m ρ c main_arg2 = (m ((c : Thread nD τ).loc main_arg2)) := W1_arg2 m ρ c
  have a4 : V1 m ρ c main_arg4 = (m ((c : Thread nD τ).loc main_arg4)) := W1_arg4 m ρ c
  rw [a0, a2, a4, funext (bias1_row m ρ c), funext (bias2_row m ρ c)]
  rfl

/-! ## What the second region finds: the first region wrote only its own output -/

theorem V2_arg1 (c : Dev nD) : V2 m ρ c main_arg1 = (m ((c : Thread nD τ).loc main_arg1)) :=
  (W2_of_ne m ρ c main_arg1 (by decide)).trans (W1_arg1 m ρ c)
theorem V2_arg2 (c : Dev nD) : V2 m ρ c main_arg2 = (m ((c : Thread nD τ).loc main_arg2)) :=
  ((W2_arr m ρ c 1).trans (((dat0 (V1 m ρ) c).arrAt_in 1 rfl _).trans (A_eq0 (V1 m ρ) c 1))).trans (W1_arg2 m ρ c)
theorem V2_arg4 (c : Dev nD) : V2 m ρ c main_arg4 = (m ((c : Thread nD τ).loc main_arg4)) :=
  ((W2_arr m ρ c 3).trans (((dat0 (V1 m ρ) c).arrAt_in 3 rfl _).trans (A_eq0 (V1 m ρ) c 3))).trans (W1_arg4 m ρ c)
theorem V2_bias1 (c : Dev nD) : V2 m ρ c main_v0 = V1 m ρ c main_v0 :=
  (W2_arr m ρ c 2).trans (((dat0 (V1 m ρ) c).arrAt_in 2 rfl _).trans (A_eq0 (V1 m ρ) c 2))
theorem V2_bias2 (c : Dev nD) : V2 m ρ c main_v1 = V1 m ρ c main_v1 :=
  (W2_arr m ρ c 4).trans (((dat0 (V1 m ρ) c).arrAt_in 4 rfl _).trans (A_eq0 (V1 m ρ) c 4))

/-! ## After the second region: the embedded corpus -/

theorem corpus_embedded (c : Dev nD) :
    W3 m ρ c (Proc.devRef .tc main_v3) = embed (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 5).trans ((CorpusRegion.array_eq (V2 m ρ) c).trans ?_)
  rw [V2_arg1 m ρ c, V2_arg2 m ρ c, V2_arg4 m ρ c, V2_bias1 m ρ c, V2_bias2 m ρ c,
    funext (bias1_row m ρ c), funext (bias2_row m ρ c)]
  rfl

/-- The second region leaves the embedded queries where the first put them. -/
theorem queries_kept (c : Dev nD) :
    W3 m ρ c (Proc.devRef .tc main_v2) = embed (m ((c : Thread nD τ).loc main_arg0)) (m ((c : Thread nD τ).loc main_arg2)) (m ((c : Thread nD τ).loc main_arg3)) (m ((c : Thread nD τ).loc main_arg4)) (m ((c : Thread nD τ).loc main_arg5)) :=
  (W3_of_ne m ρ c main_v2 (by decide)).trans (queries_embedded m ρ c)

/-! ## After the third region: the result -/

/-- The result array at the last boundary is the specification's result of the six argument arrays. -/
theorem result_value (c : Dev nD) :
    W4 m ρ c (Proc.devRef .tc main_v4)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 2).trans ((ScoreRegion.array_eq (V3 m ρ) c).trans ?_)
  have q : V3 m ρ c main_v2 = _ := queries_kept m ρ c
  have k : V3 m ρ c main_v3 = _ := corpus_embedded m ρ c
  rw [q, k]
  rfl

end Cert.KernelIdeal.KernelValue

end
-- ==== Proof.RefValue.lean ====
/-
  The reference computes the specification.

  Read one operation at a time, the reference's last value at (r, s) is minus the sum over the 5 features of the clipped
  difference of two embedded rows, and each embedded row is the two-layer perceptron of the specification: the host's
  matrix products are plain sums over the contracted axis, its sum over the feature axis starts from zero, and its
  negation is the negation of the extended reals.
-/
import proofs.«154457_j17910013624325_1_alg».proof.Proof.Gen.ReferenceIdeal.Read
import proofs.«154457_j17910013624325_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.SetScore
open Idealize.ShloMosaic Idealize.ShloMosaic.ValueIdx

/-! ## The operand indices of each operation, written by coordinates -/

section Indices
variable (r s : Fin 4096) (h : Fin 60) (q k : Fin 5) (j : Fin 30) (u : Fin 1)

theorem lidx0 : lidx_main_v0 (ix2 r h) j = ix2 r j := funext fun a => Fin.ext (by match a with | ⟨0, _⟩ => rfl | ⟨1, _⟩ => rfl)
theorem ridx0 : ridx_main_v0 (ix2 r h) j = ix2 j h := funext fun a => Fin.ext (by match a with | ⟨0, _⟩ => rfl | ⟨1, _⟩ => rfl)
theorem idx2 : idx_main_v2 (ix2 r h) = ix2 (0 : Fin 1) h := funext fun a => Fin.ext (by match a with | ⟨0, _⟩ => rfl | ⟨1, _⟩ => rfl)
theorem idx1 : idx_main_v1 (ix2 u h) = ix1 h := funext fun a => Fin.ext (by match a with | ⟨0, _⟩ => rfl)
theorem lidx5 : lidx_main_v5 (ix2 r q) h = ix2 r h := funext fun a => Fin.ext (by match a with | ⟨0, _⟩ => rfl | ⟨1, _⟩ => rfl)
theorem ridx5 : ridx_main_v5 (ix2 r q) h = ix2 h q := funext fun a => Fin.ext (by match a with | ⟨0, _⟩ => rfl | ⟨1, _⟩ => rfl)
theorem idx7 : idx_main_v7 (ix2 r q) = ix2 (0 : Fin 1) q := funext fun a => Fin.ext (by match a with | ⟨0, _⟩ => rfl | ⟨1, _⟩ => rfl)
theorem idx6 : idx_main_v6 (ix2 u q) = ix1 q := funext fun a => Fin.ext (by match a with | ⟨0, _⟩ => rfl)
theorem idx26 : idx_main_v26 (ix2 r s) k = ix3 r s k := funext fun a => Fin.ext (by match a with | ⟨0, _⟩ => rfl | ⟨1, _⟩ => rfl | ⟨2, _⟩ => rfl)
theorem idx22 : idx_main_v22 (ix3 r s k) = ix3 r (0 : Fin 1) k := funext fun a => Fin.ext (by match a with | ⟨0, _⟩ => rfl | ⟨1, _⟩ => rfl | ⟨2, _⟩ => rfl)
theorem idx20 : idx_main_v20 (ix3 r u k) = ix2 r k := funext fun a => Fin.ext (by match a with | ⟨0, _⟩ => rfl | ⟨1, _⟩ => rfl)
theorem idx23 : idx_main_v23 (ix3 r s k) = ix3 (0 : Fin 1) s k := funext fun a => Fin.ext (by match a with | ⟨0, _⟩ => rfl | ⟨1, _⟩ => rfl | ⟨2, _⟩ => rfl)
theorem idx21 : idx_main_v21 (ix3 u s k) = ix2 s k := funext fun a => Fin.ext (by match a with | ⟨0, _⟩ => rfl | ⟨1, _⟩ => rfl)

end Indices

/-! ## The embedded rows -/

/-- The reference's embedded queries are the specification's embedding of the query array. -/
theorem queries_embedded (x0 : (⟨S4096x30, .f32⟩ : BufTy).Contents (Elt Ideal)) (x2 : (⟨S30x60, .f32⟩ : BufTy).Contents (Elt Ideal)) (x3 : (⟨S60, .f32⟩ : BufTy).Contents (Elt Ideal)) (x4 : (⟨S60x5, .f32⟩ : BufTy).Contents (Elt Ideal)) (x5 : (⟨S5, .f32⟩ : BufTy).Contents (Elt Ideal)) :
    val_main_v9 (F := Ideal) x0 x2 x3 x4 x5 = embed x0 x2 x3 x4 x5 := by
  funext i
  obtain ⟨r, q, rfl⟩ : ∃ (r : Fin 4096) (q : Fin 5), i = ix2 r q := ⟨i 0, i 1, eq_ix2 i⟩
  rw [embed_apply, val_main_v9_apply, val_main_v8_apply, val_main_v5_apply, val_main_v7_apply, val_main_v6_apply,
    val_main_call1_v0_apply, val_main_call1_cst_apply]
  simp only [val_main_v4_apply, val_main_v3_apply, val_main_v0_apply, val_main_v2_apply, val_main_v1_apply,
    val_main_call0_v0_apply, val_main_call0_cst_apply, lidx5, ridx5, lidx0, ridx0, idx2, idx1, idx7, idx6,
    embedOf, hiddenOf, Ideal.maximumf_def, Ideal.addf_def, Ideal.ofBits_def, Ideal.ofBits_zero_f32]

/-- The reference embeds the corpus with the same operations it embeds the queries with. -/
theorem corpus_embedded (x1 : (⟨S4096x30, .f32⟩ : BufTy).Contents (Elt Ideal)) (x2 : (⟨S30x60, .f32⟩ : BufTy).Contents (Elt Ideal)) (x3 : (⟨S60, .f32⟩ : BufTy).Contents (Elt Ideal)) (x4 : (⟨S60x5, .f32⟩ : BufTy).Contents (Elt Ideal)) (x5 : (⟨S5, .f32⟩ : BufTy).Contents (Elt Ideal)) :
    val_main_v19 (F := Ideal) x1 x2 x3 x4 x5 = embed x1 x2 x3 x4 x5 :=
  (show val_main_v19 (F := Ideal) x1 x2 x3 x4 x5 = val_main_v9 (F := Ideal) x1 x2 x3 x4 x5 from rfl).trans
    (queries_embedded x1 x2 x3 x4 x5)

/-! ## The result -/

/-- The reference's result is the specification's: scores of the embedded queries against the embedded corpus. -/
theorem result_eq (x0 x1 : (⟨S4096x30, .f32⟩ : BufTy).Contents (Elt Ideal)) (x2 : (⟨S30x60, .f32⟩ : BufTy).Contents (Elt Ideal)) (x3 : (⟨S60, .f32⟩ : BufTy).Contents (Elt Ideal)) (x4 : (⟨S60x5, .f32⟩ : BufTy).Contents (Elt Ideal)) (x5 : (⟨S5, .f32⟩ : BufTy).Contents (Elt Ideal)) :
    val_main_v27 (F := Ideal) x0 x1 x2 x3 x4 x5 = result x0 x1 x2 x3 x4 x5 := by
  funext i
  obtain ⟨r, s, rfl⟩ : ∃ (r : Fin 4096) (s : Fin 4096), i = ix2 r s := ⟨i 0, i 1, eq_ix2 i⟩
  rw [val_main_v27_apply, val_main_v26_apply]
  simp only [val_main_v25_apply, val_main_v24_apply, val_main_v22_apply, val_main_v20_apply, val_main_v23_apply,
    val_main_v21_apply, val_main_call4_v0_apply, val_main_call4_cst_apply, val_main_cst_apply,
    idx26, idx22, idx20, idx23, idx21, queries_embedded, corpus_embedded]
  simp only [result, score_apply, scoreOf, Ideal.hostNegf_def, Ideal.negf_def, Ideal.maximumf_def, Ideal.subf_def,
    Ideal.ofBits_def, Ideal.ofBits_zero_f32, zero_add]

end Cert.ReferenceIdeal.RefValue

end
-- ==== Proof.lean ====
/-
  Set-similarity scores: a kernel program of three regions against its plain reference.

  Both programs embed every query row and every corpus row (30 numbers each) with the same two-layer perceptron, clipped
  at zero after each layer, and return for every pair minus the one-sided L1 distance of the two embeddings:
    score[r, s] = - sum_k max (embed(queries[r])_k - embed(corpus[s])_k, 0).
  The kernel program computes the two embeddings in two regions of 8 row blocks each and the scores in a third region of
  8 by 8 blocks; the reference computes everything on whole arrays. Over the extended reals the two agree entry by entry
  with no condition on the inputs: a matrix product accumulated into zero is the plain sum over the contracted axis on
  both sides, the sum over the 5 features starts from zero on both sides, and the kernel's subtraction from zero is the
  reference's negation (0 - s = -s holds at the infinities too). The ideal pass rewrote nothing, so the idealized
  kernel is the kernel's own text and that claim is trivial. The frames of the two kernel programs are the generated
  ones; the reference's frame is its generated run with the result dropped.
-/
import proofs.«154457_j17910013624325_1_alg».proof.Defs
import proofs.«154457_j17910013624325_1_alg».proof.Proof.Gen.Kernel
import proofs.«154457_j17910013624325_1_alg».proof.Proof.Gen.Kernel.Skeleton
import proofs.«154457_j17910013624325_1_alg».proof.Proof.Gen.Kernel.Launch
import proofs.«154457_j17910013624325_1_alg».proof.Proof.Gen.Kernel.Points
import proofs.«154457_j17910013624325_1_alg».proof.Proof.Gen.Kernel.Frame
import proofs.«154457_j17910013624325_1_alg».proof.Proof.Gen.KernelIdeal
import proofs.«154457_j17910013624325_1_alg».proof.Proof.Gen.KernelIdeal.Skeleton
import proofs.«154457_j17910013624325_1_alg».proof.Proof.Gen.KernelIdeal.Launch
import proofs.«154457_j17910013624325_1_alg».proof.Proof.Gen.KernelIdeal.Points
import proofs.«154457_j17910013624325_1_alg».proof.Proof.Gen.KernelIdeal.Frame
import proofs.«154457_j17910013624325_1_alg».proof.Proof.Gen.ReferenceIdeal
import proofs.«154457_j17910013624325_1_alg».proof.Proof.Gen.ReferenceIdeal.Run
import proofs.«154457_j17910013624325_1_alg».proof.Proof.Gen.ReferenceIdeal.Read
import proofs.«154457_j17910013624325_1_alg».proof.Proof.Gen.Pre_finite_inputs
import proofs.«154457_j17910013624325_1_alg».proof.Proof.Spec
import proofs.«154457_j17910013624325_1_alg».proof.Proof.KernelRun
import proofs.«154457_j17910013624325_1_alg».proof.Proof.KernelValue
import proofs.«154457_j17910013624325_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's result of the argument arrays: the kernel program by its
    three regions read one after the other, the reference by its operations read one at a time. -/
theorem algebraic : Cert.algebraic_KernelIdeal_ReferenceIdeal := by
  intro m ρ m' ρ' _ hagree
  refine ⟨fun c => Cert.SetScore.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_value m ρ c), (h c).2⟩)
      (Cert.KernelIdeal.GenRun.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v27_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
